-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S64x768 : Shape := ⟨2, ![64, 768]⟩
abbrev S64 : Shape := ⟨1, ![64]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x256x768 .f32) (main_arg1 : FVec F S64x768 .f32) (main_arg2 : FVec F S64 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x256x768 : Shape := ⟨3, ![4, 256, 768]⟩
abbrev S64x768 : Shape := ⟨2, ![64, 768]⟩
abbrev S64 : Shape := ⟨1, ![64]⟩
abbrev S1024x768 : Shape := ⟨2, ![1024, 768]⟩
abbrev S768x64 : Shape := ⟨2, ![768, 64]⟩
abbrev S1024x64 : Shape := ⟨2, ![1024, 64]⟩
abbrev S256x768 : Shape := ⟨2, ![256, 768]⟩
abbrev S256x64 : Shape := ⟨2, ![256, 64]⟩
abbrev S4x256x64 : Shape := ⟨3, ![4, 256, 64]⟩
abbrev S4x256x256x64 : Shape := ⟨4, ![4, 256, 256, 64]⟩
abbrev S1x128x64 : Shape := ⟨3, ![1, 128, 64]⟩
abbrev S1x256x64 : Shape := ⟨3, ![1, 256, 64]⟩
abbrev S1x128x256x64 : Shape := ⟨4, ![1, 128, 256, 64]⟩
abbrev S128x64 : Shape := ⟨2, ![128, 64]⟩
abbrev S128x1x64 : Shape := ⟨3, ![128, 1, 64]⟩
abbrev S128x256x64 : Shape := ⟨3, ![128, 256, 64]⟩
abbrev S1x1x64 : Shape := ⟨3, ![1, 1, 64]⟩

abbrev nBuf : Space → Nat
  | .hbm => 8
  | .vmem => 12
  | .smem => 0
  | _ => 0

abbrev bufTy : (tb : Table) → Fin (tcTables nBuf tb) → BufTy
  | .hbm, ⟨0, _⟩ => ⟨S4x256x768, .f32⟩
  | .hbm, ⟨1, _⟩ => ⟨S64x768, .f32⟩
  | .hbm, ⟨2, _⟩ => ⟨S64, .f32⟩
  | .hbm, ⟨3, _⟩ => ⟨S1024x768, .f32⟩
  | .hbm, ⟨4, _⟩ => ⟨S768x64, .f32⟩
  | .hbm, ⟨5, _⟩ => ⟨S1024x64, .f32⟩
  | .hbm, ⟨6, _⟩ => ⟨S4x256x64, .f32⟩
  | .hbm, ⟨7, _⟩ => ⟨S4x256x256x64, .f32⟩
  | .local _ .vmem, ⟨0, _⟩ => ⟨S256x768, .f32⟩
  | .local _ .vmem, ⟨1, _⟩ => ⟨S256x768, .f32⟩
  | .local _ .vmem, ⟨2, _⟩ => ⟨S768x64, .f32⟩
  | .local _ .vmem, ⟨3, _⟩ => ⟨S256x64, .f32⟩
  | .local _ .vmem, ⟨4, _⟩ => ⟨S256x64, .f32⟩
  | .local _ .vmem, ⟨5, _⟩ => ⟨S1x128x64, .f32⟩
  | .local _ .vmem, ⟨6, _⟩ => ⟨S1x128x64, .f32⟩
  | .local _ .vmem, ⟨7, _⟩ => ⟨S1x256x64, .f32⟩
  | .local _ .vmem, ⟨8, _⟩ => ⟨S1x256x64, .f32⟩
  | .local _ .vmem, ⟨9, _⟩ => ⟨S64, .f32⟩
  | .local _ .vmem, ⟨10, _⟩ => ⟨S1x128x256x64, .f32⟩
  | .local _ .vmem, ⟨11, _⟩ => ⟨S1x128x256x64, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x256x768_S1024x768 : S4x256x768.ShapeCasts S1024x768
  transposes_S64x768_S768x64_1_0 : S64x768.Transposes [1, 0] S768x64
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S256x64_S256x64_0_0 : ∀ a, (![0, 0] : Fin 2 → Nat) a + S256x64.size a ≤ S256x64.size a
  h_S256x64 : 0 < S256x64.numel
  shapeCasts_S1024x64_S4x256x64 : S1024x64.ShapeCasts S4x256x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S64_S64_0 : ∀ a, (![0] : Fin 1 → Nat) a + S64.size a ≤ S64.size a
  h_S64 : 0 < S64.numel
  shapeCasts_S128x64_S128x1x64 : S128x64.ShapeCasts S128x1x64
  shapeCasts_S256x64_S1x256x64 : S256x64.ShapeCasts S1x256x64
  broadcasts_S128x1x64_S128x256x64 : S128x1x64.Broadcasts S128x256x64
  broadcasts_S1x256x64_S128x256x64 : S1x256x64.Broadcasts S128x256x64
  shapeCasts_S64_S1x1x64 : S64.ShapeCasts S1x1x64
  broadcasts_S1x1x64_S128x256x64 : S1x1x64.Broadcasts S128x256x64
  inb_S1x128x256x64_S1x128x256x64_0_0_0_0 : ∀ a, (![0, 0, 0, 0] : Fin 4 → Nat) a + S1x128x256x64.size a ≤ S1x128x256x64.size a
  h_S1x128x256x64 : 0 < S1x128x256x64.numel
  shapeCasts_S1x128x256x64_S128x256x64 : S1x128x256x64.ShapeCasts S128x256x64
  shapeCasts_S128x256x64_S1x128x256x64 : S128x256x64.ShapeCasts S1x128x256x64
  dot_S256x768_S768x64_S256x64_1_0_0_1_n_n_wf : DotDims.WF S256x768 S768x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S1024x768.size a
  hwx0_0 : ∀ i : grid0.Coords, EltTy.bits .f32 = 32 ∨ (Rect.block (s := S1024x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S1024x64.size a
  hwx0_2 : ∀ i : grid0.Coords, EltTy.bits .f32 = 32 ∨ (Rect.block (s := S1024x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S4x256x64.size a
  hwx1_0 : ∀ i : grid1.Coords, EltTy.bits .f32 = 32 ∨ (Rect.block (s := S4x256x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64.size a ≤ S4x256x64.size a
  hwx1_1 : ∀ i : grid1.Coords, EltTy.bits .f32 = 32 ∨ (Rect.block (s := S4x256x64) S1x256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x256x64.size a ≤ S4x256x256x64.size a
  hwx1_3 : ∀ i : grid1.Coords, EltTy.bits .f32 = 32 ∨ (Rect.block (s := S4x256x256x64) S1x128x256x64.size (cc1_transform_3 i) (hinb1_3 i)).WholeWords (EltTy.packing .f32)

variable [Facts₀]

def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x768 : Shape := ⟨3, ![4, 256, 768]⟩
abbrev S64x768 : Shape := ⟨2, ![64, 768]⟩
abbrev S64 : Shape := ⟨1, ![64]⟩
abbrev S4x256x1x768 : Shape := ⟨4, ![4, 256, 1, 768]⟩
abbrev S4x1x256x768 : Shape := ⟨4, ![4, 1, 256, 768]⟩
abbrev S4x256x256x768 : Shape := ⟨4, ![4, 256, 256, 768]⟩
abbrev S4x256x256x64 : Shape := ⟨4, ![4, 256, 256, 64]⟩
abbrev S1x1x1x64 : Shape := ⟨4, ![1, 1, 1, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S64x768, .f32⟩
  | .hbm, ⟨2, _⟩ => ⟨S64, .f32⟩
  | .hbm, ⟨3, _⟩ => ⟨S4x256x1x768, .f32⟩
  | .hbm, ⟨4, _⟩ => ⟨S4x1x256x768, .f32⟩
  | .hbm, ⟨5, _⟩ => ⟨S4x256x256x768, .f32⟩
  | .hbm, ⟨6, _⟩ => ⟨S4x256x256x768, .f32⟩
  | .hbm, ⟨7, _⟩ => ⟨S4x256x256x768, .f32⟩
  | .hbm, ⟨8, _⟩ => ⟨S4x256x256x64, .f32⟩
  | .hbm, ⟨9, _⟩ => ⟨S1x1x1x64, .f32⟩
  | .hbm, ⟨10, _⟩ => ⟨S4x256x256x64, .f32⟩
  | .hbm, ⟨11, _⟩ => ⟨S4x256x256x64, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S4x256x768_S4x256x1x768_0_1_3 : S4x256x768.BroadcastsInDim S4x256x1x768 (![0, 1, 3] : Fin 3 → Fin S4x256x1x768.rank)
  bcast_S4x256x768_S4x1x256x768_0_2_3 : S4x256x768.BroadcastsInDim S4x1x256x768 (![0, 2, 3] : Fin 3 → Fin S4x1x256x768.rank)
  bcast_S4x256x1x768_S4x256x256x768_0_1_2_3 : S4x256x1x768.BroadcastsInDim S4x256x256x768 (![0, 1, 2, 3] : Fin 4 → Fin S4x256x256x768.rank)
  bcast_S4x1x256x768_S4x256x256x768_0_1_2_3 : S4x1x256x768.BroadcastsInDim S4x256x256x768 (![0, 1, 2, 3] : Fin 4 → Fin S4x256x256x768.rank)
  bcast_S64_S1x1x1x64_3 : S64.BroadcastsInDim S1x1x1x64 (![3] : Fin 1 → Fin S1x1x1x64.rank)
  bcast_S1x1x1x64_S4x256x256x64_0_1_2_3 : S1x1x1x64.BroadcastsInDim S4x256x256x64 (![0, 1, 2, 3] : Fin 4 → Fin S4x256x256x64.rank)
  dot_S4x256x256x768_S64x768_S4x256x256x64_3_1_012_0_n_n_wf : DotDims.WF S4x256x256x768 S64x768 S4x256x256x64 [3] [1] [0, 1, 2] [0] [] []

variable [Facts₀]

def dot_S4x256x256x768_S64x768_S4x256x256x64_3_1_012_0_n_n : DotDims S4x256x256x768 S64x768 S4x256x256x64 where
  lhsContracting := [3]
  rhsContracting := [1]
  lhsNonContracting := [0, 1, 2]
  rhsNonContracting := [0]
  lhsBatch := []
  rhsBatch := []
  wf := dot_S4x256x256x768_S64x768_S4x256x256x64_3_1_012_0_n_n_wf

class Facts : Prop extends Facts₀ where

variable [Facts]
-- ==== Proof.BitsProj.lean ====
/-
  The projection region of the kernel as printed: the first pallas_call computes, for each block of 256 rows of
  the flattened input (1024 × 768), the product of that block with the transposed weight (768 × 64) into a
  zero accumulator, and writes the 256 × 64 block of the projection. This module states, at any entry contents
  `V` of the core's buffers, what each window's staging buffer holds around the body at a grid point, the body's
  triple, the pipeline's proof data and the body obligation.
-/
import proofs.«179902_j43379169690302_1_alg».proof.Proof.Gen.Kernel.Launch
import proofs.«179902_j43379169690302_1_alg».proof.Proof.Gen.Kernel.Skeleton
import proofs.«179902_j43379169690302_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` addresses, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the flattened input sits in its staging buffer at every point (it is fetched at each). -/
theorem before_rows_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The transposed weight, fetched once, is still in its staging buffer at every later point: its block index never moves. -/
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The body reads and writes each staging buffer whole. -/
abbrev rRows : Rect S256x768 := Rect.unit (s := S256x768) ![0, 0] S256x768.size inb_S256x768_S256x768_0_0
abbrev rWeight : Rect S768x64 := Rect.unit (s := S768x64) ![0, 0] S768x64.size inb_S768x64_S768x64_0_0
abbrev rOut : Rect S256x64 := Rect.unit (s := S256x64) ![0, 0] S256x64.size inb_S256x64_S256x64_0_0

/-- What the body leaves in the output's staging buffer: its one whole-block store of the product. -/
def outBlock (x : Vec F S256x768 .f32) (w : Vec F S768x64 .f32) : Vec F S256x64 .f32 :=
  View.canon [⟨rOut, k0_pay1 (View.ld x rRows) (View.ld w rWeight)⟩]

theorem outCover (p0 : Vec F S256x64 .f32) (y : S256x64.Idx) :
    ∃ pc ∈ ([⟨rOut, p0⟩] : List (View.Piece (Elt F) S256x64 .f32)), y ∈ pc.1.set :=
  View.cover_of_tiled [⟨rOut, p0⟩] S256x64.size (by rfl) y

set_option maxHeartbeats 1000000 in
/-- The body's triple: from the two input buffers at read contents `x`, `w` and the output buffer at anything, the
    body runs to the inputs unchanged and the output at `outBlock x w`. -/
theorem sound_kernel (c : Dev nD) (E : Set ℕ) (i : grid0.Coords)
    (arg1 : Memref sig .tc .vmem S256x768 .f32) (harg1 : arg1.IsWhole) (arg2 : Memref sig .tc .vmem S768x64 .f32) (harg2 : arg2.IsWhole)
    (arg3 : Memref sig .tc .vmem S256x64 .f32) (harg3 : arg3.IsWhole)
    (x : Vec F S256x768 .f32) (w : Vec F S768x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-- The proof data of the projection's pipeline on core `c`: arrays as the region finds them; each input buffer keeps
    its block, the output buffer holds the product of the two input blocks; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outBlock (blockAt V c 0 t) (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_out (c : Dev nD) (t : Fin cfg0.N) : (dat V c).after 2 t = outBlock (blockAt V c 0 t) (blockAt V c 1 t) := by dsimp only [dat]

theorem before_rows (c : Dev nD) (t : Fin cfg0.N) (d) : (dat V c).before 0 t d = blockAt V c 0 t :=
  before_rows_of V (dat V c) (A_eq V c 0) (after_rows V c) t d
theorem before_weight (c : Dev nD) (t : Fin cfg0.N) (d) : (dat V c).before 1 t d = blockAt V c 1 t :=
  before_weight_of V (dat V c) (A_eq V c 1) (after_weight V c) t d

/-- What the body is handed at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight]
  rw [show (dat V c).Φ t.succ = (dat V c).Φ t.castSucc from rfl,
    show (dat V c).owesAt () t.succ = (dat V c).owesAt () t.castSucc from rfl,
    after_rows, after_weight, after_out]
  iintro ⟨HΦ, Ho, ⟨%d0, H0⟩, ⟨%d1, H1⟩, ⟨%d2, H2⟩⟩
  iapply (sound_kernel c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Proj

end
-- ==== Proof.BitsDiff.lean ====
/-
  The pairwise-difference region of the kernel as printed: the second pallas_call reads, at grid point (b, i), the
  128 projected rows of batch b's i-th half, all 256 projected rows of batch b, and the bias, and writes the block
  out[b, 128 i + p, j, c] = proj[b, 128 i + p, c] − proj[b, j, c] + bias[c]. Two of its input windows read the same
  array (the projection), at different blocks. This module states, at any entry contents `V` of the core's buffers,
  what each window's staging buffer holds around the body at a grid point, the body's triple, the pipeline's proof
  data (the projection's array held in two halves of its share, one per window reading it) and the body obligation.
-/
import proofs.«179902_j43379169690302_1_alg».proof.Proof.Gen.Kernel.Launch
import proofs.«179902_j43379169690302_1_alg».proof.Proof.Gen.Kernel.Skeleton
import proofs.«179902_j43379169690302_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` addresses, read off the entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 query rows are in their staging buffer at every point. -/
theorem before_query_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The batch's 256 rows, fetched when the batch changes, are in their staging buffer at every point of the batch. -/
theorem before_batch_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias, fetched once, is in its staging buffer at every point. -/
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The body reads and writes each staging buffer whole. -/
abbrev rQuery : Rect S1x128x64 := Rect.unit (s := S1x128x64) ![0, 0, 0] S1x128x64.size inb_S1x128x64_S1x128x64_0_0_0
abbrev rBatch : Rect S1x256x64 := Rect.unit (s := S1x256x64) ![0, 0, 0] S1x256x64.size inb_S1x256x64_S1x256x64_0_0_0
abbrev rBias : Rect S64 := Rect.unit (s := S64) ![0] S64.size inb_S64_S64_0
abbrev rOut : Rect S1x128x256x64 := Rect.unit (s := S1x128x256x64) ![0, 0, 0, 0] S1x128x256x64.size inb_S1x128x256x64_S1x128x256x64_0_0_0_0

/-- What the body leaves in the output's staging buffer: its one whole-block store of the broadcast difference plus bias. -/
def outBlock (q : Vec F S1x128x64 .f32) (k : Vec F S1x256x64 .f32) (b : Vec F S64 .f32) : Vec F S1x128x256x64 .f32 :=
  View.canon [⟨rOut, k1_pay1 (View.ld q rQuery) (View.ld k rBatch) (View.ld b rBias)⟩]

theorem outCover (p0 : Vec F S1x128x256x64 .f32) (y : S1x128x256x64.Idx) :
    ∃ pc ∈ ([⟨rOut, p0⟩] : List (View.Piece (Elt F) S1x128x256x64 .f32)), y ∈ pc.1.set :=
  View.cover_of_tiled [⟨rOut, p0⟩] S1x128x256x64.size (by rfl) y

set_option maxHeartbeats 1000000 in
/-- The body's triple: from the three input buffers at read contents `q`, `k`, `b` and the output buffer at anything,
    the body runs to the inputs unchanged and the output at `outBlock q k b`. -/
theorem sound_kernel (c : Dev nD) (E : Set ℕ) (i : grid1.Coords)
    (arg2 : Memref sig .tc .vmem S1x128x64 .f32) (harg2 : arg2.IsWhole) (arg3 : Memref sig .tc .vmem S1x256x64 .f32) (harg3 : arg3.IsWhole)
    (arg4 : Memref sig .tc .vmem S64 .f32) (harg4 : arg4.IsWhole) (arg5 : Memref sig .tc .vmem S1x128x256x64 .f32) (harg5 : arg5.IsWhole)
    (q : Vec F S1x128x64 .f32) (k : Vec F S1x256x64 .f32) (b : Vec F S64 .f32) (K : PUnit → sProp 𝕄) :
    iprop(owns (c : Thread nD τ) arg2 fullShare q ∗ owns (c : Thread nD τ) arg3 fullShare k ∗ owns (c : Thread nD τ) arg4 fullShare b
        ∗ (∃ d, owns (c : Thread nD τ) arg5 fullShare d)
        ∗ (iprop(owns (c : Thread nD τ) arg2 fullShare q ∗ owns (c : Thread nD τ) arg3 fullShare k ∗ owns (c : Thread nD τ) arg4 fullShare b
            ∗ owns (c : Thread nD τ) arg5 fullShare (outBlock q k b)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The proof data of the difference's pipeline on core `c`: arrays as the region finds them; each input buffer keeps
    its block, the output buffer holds the body's result of the three input blocks; nothing owed. The projection's
    array is read by windows 0 and 1: each holds one half of its share; the bias is held whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outBlock (blockAt V c 0 t) (blockAt V c 1 t) (blockAt V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem after_query (c : Dev nD) (t : Fin cfg1.N) : (dat V c).after 0 t = blockAt V c 0 t := by dsimp only [dat]
theorem after_batch (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_out (c : Dev nD) (t : Fin cfg1.N) :
    (dat V c).after 3 t = outBlock (blockAt V c 0 t) (blockAt V c 1 t) (blockAt V c 2 t) := by dsimp only [dat]

theorem before_query (c : Dev nD) (t : Fin cfg1.N) (d) : (dat V c).before 0 t d = blockAt V c 0 t :=
  before_query_of V (dat V c) (A_eq V c 0) (after_query V c) t d
theorem before_batch (c : Dev nD) (t : Fin cfg1.N) (d) : (dat V c).before 1 t d = blockAt V c 1 t :=
  before_batch_of V (dat V c) (A_eq V c 1) (after_batch V c) t d
theorem before_bias (c : Dev nD) (t : Fin cfg1.N) (d) : (dat V c).before 2 t d = blockAt V c 2 t :=
  before_bias_of V (dat V c) (A_eq V c 2) (after_bias V c) t d

/-- The shares the two readers of the projection hold compose to the whole. -/
theorem share_query (c : Dev nD) : (dat V c).share 0 = fullShare.left := by unfold Dat.share; dsimp only [dat]; rfl
theorem share_batch (c : Dev nD) : (dat V c).share 1 = fullShare.right := by unfold Dat.share; dsimp only [dat]; rfl
theorem share_bias (c : Dev nD) : (dat V c).share 2 = fullShare := by unfold Dat.share; dsimp only [dat]; rfl
theorem share_out (c : Dev nD) : (dat V c).share 3 = fullShare := by unfold Dat.share; dsimp only [dat]; rfl

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_query, before_batch, before_bias]
  rw [show (dat V c).Φ t.succ = (dat V c).Φ t.castSucc from rfl,
    show (dat V c).owesAt () t.succ = (dat V c).owesAt () t.castSucc from rfl,
    after_query, after_batch, after_bias, after_out]
  iintro ⟨HΦ, Ho, ⟨%d0, H0⟩, ⟨%d1, H1⟩, ⟨%d2, H2⟩, ⟨%d3, H3⟩⟩
  iapply (sound_kernel c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.Kernel.Diff

end
-- ==== Proof.BitsRun.lean ====
/-
  The run of the printed kernel's @main: reshape the input to 1024 × 768 and transpose the weight, the projection
  region, reshape the projection to 4 × 256 × 64, the pairwise-difference region. The contents of the core's
  unscoped buffers are followed from the launch through the four items; each region is entered from the buffers at
  the contents the item before left and left at those contents updated by what its pipeline wrote back. The theorem
  `run` says that every weakly fair execution terminates with every unscoped buffer at the last of these contents;
  `frame` reads the three arguments off it.
-/
import proofs.«179902_j43379169690302_1_alg».proof.Proof.Gen.Kernel.Launch
import proofs.«179902_j43379169690302_1_alg».proof.Proof.Gen.Kernel.Skeleton
import proofs.«179902_j43379169690302_1_alg».proof.Proof.Gen.Kernel.Points
import proofs.«179902_j43379169690302_1_alg».proof.Proof.BitsProj
import proofs.«179902_j43379169690302_1_alg».proof.Proof.BitsDiff
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m (c, b)
/-- After the reshape of the input and the transpose of the weight. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its output array at what the write-backs leave, everything else as entered. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projExit_arr (c : Dev nD) (w : Fin cfg0.W) : (Proj.dat (V1 m) c).arrAt w cfg0.N = V2 m c (Pipeline.arrRef spec0 w) :=
  (W2_arr m c w).symm
theorem projExit_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the projection. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the difference region: the result array at what the write-backs leave, everything else as entered (the
    region's other arrays are inputs, never written). -/
def W4 (c : Dev nD) : Valuation τ sig (Elt F) :=
  Function.update (W3 m c) (Proc.devRef .tc main_v4) ((Diff.dat (V3 m) c).arrAt 3 cfg1.N)
theorem W4_out (c : Dev nD) : W4 m c (Proc.devRef .tc main_v4) = (Diff.dat (V3 m) c).arrAt 3 cfg1.N := by
  unfold W4; exact Function.update_self ..
theorem W4_of_ne (c : Dev nD) (b : Ref sig .tc) (hb : b ≠ main_v4) :
    W4 m c (Proc.devRef .tc b) = W3 m c (Proc.devRef .tc b) := by
  unfold W4
  exact Function.update_of_ne (StableHlo.devRef_ne_of_ne hb : (Proc.devRef .tc b : DevRef τ sig) ≠ Proc.devRef .tc main_v4) _ _
abbrev V4 : (c : Dev nD) → (b : Ref sig .tc) → Buf (Elt F) ((c : Thread nD τ).loc b) := fun c b => W4 m c b

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Diff.dat (V3 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The difference region's arrays: one buffer read through two windows

The projection's buffer, whole at the full share, is the two halves of that share, one for each window that
reads it; at the region's exit the halves, both still at the entry contents, make the full share again. -/

theorem diff_arrays_in (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((Diff.dat V c).arrays ((Diff.dat V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [bigSep_eq_bigSepL_of_eq [main_v3, main_arg2, main_v4] (by decide) (by decide), bigSep_W1]
  rw [Diff.share_query, Diff.share_batch, Diff.share_bias, Diff.share_out,
    show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ]
  rw [show (bigSepL [main_v3, main_arg2, main_v4] fun b => (((c : Thread nD τ).loc b) ↦{fullShare} V c b : sProp 𝕄))
      = iprop((((c : Thread nD τ).loc main_v3) ↦{fullShare} V c main_v3) ∗ (((c : Thread nD τ).loc main_arg2) ↦{fullShare} V c main_arg2)
          ∗ (((c : Thread nD τ).loc main_v4) ↦{fullShare} V c main_v4)) from rfl]
  iintro ⟨H3, H2, H4⟩
  have hsh : ((((c : Thread nD τ).loc main_v3) ↦{fullShare} V c main_v3 : sProp 𝕄))
      ⊢ iprop((((c : Thread nD τ).loc main_v3) ↦{fullShare.left} V c main_v3) ∗ (((c : Thread nD τ).loc main_v3) ↦{fullShare.right} V c main_v3)) :=
    (pointsTo_share (PosShare.mem_left_op_right fullShare)).1
  ihave Hs := hsh $$ H3
  icases Hs with ⟨Hl, Hr⟩
  isplitl [Hl]; · iexact Hl
  isplitl [Hr]; · iexact Hr
  isplitl [H2]; · iexact H2
  iexact H4

theorem diff_arrays_out (c : Dev nD) (V : (c : Dev nD) → (b : Ref sig .tc) → Buf (Elt F) ((c : Thread nD τ).loc b))
    (V' : (b : Ref sig .tc) → Buf (Elt F) ((c : Thread nD τ).loc b))
    (hout : V' main_v4 = (Diff.dat V c).arrAt 3 cfg1.N) (hrest : ∀ b, b ≠ main_v4 → V' b = V c b) :
    iprop((Diff.dat V c).arrays ((Diff.dat V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · have e0 : (Diff.dat V c).arrAt 0 cfg1.N = V' main_v3 :=
      (((Diff.dat V c).arrAt_in 0 rfl _).trans (Diff.A_eq V c 0)).trans (hrest main_v3 (by decide)).symm
    have e1 : (Diff.dat V c).arrAt 1 cfg1.N = V' main_v3 :=
      (((Diff.dat V c).arrAt_in 1 rfl _).trans (Diff.A_eq V c 1)).trans (hrest main_v3 (by decide)).symm
    have e2 : (Diff.dat V c).arrAt 2 cfg1.N = V' main_arg2 :=
      (((Diff.dat V c).arrAt_in 2 rfl _).trans (Diff.A_eq V c 2)).trans (hrest main_arg2 (by decide)).symm
    unfold Pipeline.arrBufs Dat.arrays
    rw [bigSep_eq_bigSepL_of_eq [main_v3, main_arg2, main_v4] (by decide) (by decide), bigSep_W1]
    rw [Diff.share_query, Diff.share_batch, Diff.share_bias, Diff.share_out,
      show (cfg1.win 0).arr.view.set = Finset.univ from (arr_whole1 0).set_eq_univ,
      show (cfg1.win 2).arr.view.set = Finset.univ from (arr_whole1 2).set_eq_univ,
      show (cfg1.win 3).arr.view.set = Finset.univ from (arr_whole1 3).set_eq_univ]
    rw [show (bigSepL [main_v3, main_arg2, main_v4] fun b => (((c : Thread nD τ).loc b) ↦{fullShare} V' b : sProp 𝕄))
        = iprop((((c : Thread nD τ).loc main_v3) ↦{fullShare} V' main_v3) ∗ (((c : Thread nD τ).loc main_arg2) ↦{fullShare} V' main_arg2)
            ∗ (((c : Thread nD τ).loc main_v4) ↦{fullShare} V' main_v4)) from rfl]
    dsimp only
    rw [e0, e1, e2, ← hout]
    have hjoin : iprop((((c : Thread nD τ).loc main_v3) ↦{fullShare.left} V' main_v3) ∗ (((c : Thread nD τ).loc main_v3) ↦{fullShare.right} V' main_v3))
        ⊢ ((((c : Thread nD τ).loc main_v3) ↦{fullShare} V' main_v3 : sProp 𝕄)) :=
      (pointsTo_share (PosShare.mem_left_op_right fullShare)).2
    iintro ⟨Hl, Hr, H2, H4⟩
    isplitl [Hl Hr]
    · iapply hjoin; isplitl [Hl] <;> iassumption
    isplitl [H2]; · iexact H2
    iexact H4
  · unfold Pipeline.unscopedRest
    exact bigSep_congr fun b hb => by
      rw [hrest b fun e => (Finset.mem_sdiff.mp hb).2 (e ▸ Finset.mem_image.mpr ⟨3, Finset.mem_univ _, rfl⟩)]

/-! ## The regions as segments -/

set_option backward.isDefEq.respectTransparency.types false in
/-- The projection region: entered from every unscoped buffer at `W1`, left at `W2`. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The difference region: entered from every unscoped buffer at `W3`, left at `W4`. -/
def regDiff : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Diff.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := diff_arrays_in (F := F) c (V3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := diff_arrays_out (F := F) c (V3 m) (V4 m c) (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh (W0 m)),
    .region (regProj m),
    .host (hseg hostOps1 hostOps1_sub hostOps1_fresh (W2 m)),
    .region (regDiff m) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    unscoped buffer of every core ends at the last contents of the fold, `W4`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- The first stretch writes only the reshaped input and the transposed weight; the second only the reshaped projection. -/
theorem stretch0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.unary_writes, StableHlo.reshape_writes, Finset.singleton_subset_iff, List.mem_toFinset]; exact List.mem_map_of_mem (by decide), by simp only [StableHlo.unary_writes, StableHlo.reshape_writes, Finset.singleton_subset_iff, List.mem_toFinset]; exact List.mem_map_of_mem (by decide)⟩
theorem stretch1_writes : (hostOps1 : List (HloOp τ sig (Elt F))).Forall fun op => op.writes ⊆ (([main_v3] : List (Ref sig .tc)).map (Proc.devRef (τ := τ) .tc)).toFinset := by
  simp only [List.Forall]; exact (by simp only [StableHlo.unary_writes, StableHlo.reshape_writes, Finset.singleton_subset_iff, List.mem_toFinset]; exact List.mem_map_of_mem (by decide))

theorem W1_of (c : Dev nD) (b : Ref sig .tc) (h : b ∉ ([main_v0, main_v1] : List (Ref sig .tc))) :
    W1 m c (Proc.devRef .tc b) = W0 m c (Proc.devRef .tc b) :=
  StableHlo.after_of_writes_sub hostOps0 _ stretch0_writes h
theorem W3_of (c : Dev nD) (b : Ref sig .tc) (h : b ∉ ([main_v3] : List (Ref sig .tc))) :
    W3 m c (Proc.devRef .tc b) = W2 m c (Proc.devRef .tc b) :=
  StableHlo.after_of_writes_sub hostOps1 _ stretch1_writes h

/-- A buffer no item writes — not the two reshapes' or the transpose's result, not a region's output — ends as launched. -/
theorem W4_kept (c : Dev nD) (b : Ref sig .tc) (h4 : b ≠ main_v4) (h3 : b ∉ ([main_v3] : List (Ref sig .tc)))
    (h2 : ∀ w, Pipeline.arrRef spec0 w ≠ b) (h1 : b ∉ ([main_v0, main_v1] : List (Ref sig .tc))) :
    W4 m c (Proc.devRef .tc b) = m ((c : Thread nD τ).loc b) :=
  (W4_of_ne m c b h4).trans <| (W3_of m c b h3).trans <| (W2_of_ne m c b h2).trans <| (W1_of m c b h1).trans rfl

/-- The frame: every weakly fair execution terminates, nothing faulting, the three arguments unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩)
    (run m ρ)

end Cert.Kernel.Run

end
-- ==== Proof.IdealProj.lean ====
/-
  The projection region of the idealized kernel: the first pallas_call computes, for each block of 256 rows of
  the flattened input (1024 × 768), the product of that block with the transposed weight (768 × 64) into a
  zero accumulator, and writes the 256 × 64 block of the projection. This module states, at any entry contents
  `V` of the core's buffers, what each window's staging buffer holds around the body at a grid point, the body's
  triple, the pipeline's proof data and the body obligation.
-/
import proofs.«179902_j43379169690302_1_alg».proof.Proof.Gen.KernelIdeal.Launch
import proofs.«179902_j43379169690302_1_alg».proof.Proof.Gen.KernelIdeal.Skeleton
import proofs.«179902_j43379169690302_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` addresses, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the flattened input sits in its staging buffer at every point (it is fetched at each). -/
theorem before_rows_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The transposed weight, fetched once, is still in its staging buffer at every later point: its block index never moves. -/
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The body reads and writes each staging buffer whole. -/
abbrev rRows : Rect S256x768 := Rect.unit (s := S256x768) ![0, 0] S256x768.size inb_S256x768_S256x768_0_0
abbrev rWeight : Rect S768x64 := Rect.unit (s := S768x64) ![0, 0] S768x64.size inb_S768x64_S768x64_0_0
abbrev rOut : Rect S256x64 := Rect.unit (s := S256x64) ![0, 0] S256x64.size inb_S256x64_S256x64_0_0

/-- What the body leaves in the output's staging buffer: its one whole-block store of the product. -/
def outBlock (x : Vec F S256x768 .f32) (w : Vec F S768x64 .f32) : Vec F S256x64 .f32 :=
  View.canon [⟨rOut, k0_pay1 (View.ld x rRows) (View.ld w rWeight)⟩]

theorem outCover (p0 : Vec F S256x64 .f32) (y : S256x64.Idx) :
    ∃ pc ∈ ([⟨rOut, p0⟩] : List (View.Piece (Elt F) S256x64 .f32)), y ∈ pc.1.set :=
  View.cover_of_tiled [⟨rOut, p0⟩] S256x64.size (by rfl) y

set_option maxHeartbeats 1000000 in
/-- The body's triple: from the two input buffers at read contents `x`, `w` and the output buffer at anything, the
    body runs to the inputs unchanged and the output at `outBlock x w`. -/
theorem sound_kernel (c : Dev nD) (E : Set ℕ) (i : grid0.Coords)
    (arg1 : Memref sig .tc .vmem S256x768 .f32) (harg1 : arg1.IsWhole) (arg2 : Memref sig .tc .vmem S768x64 .f32) (harg2 : arg2.IsWhole)
    (arg3 : Memref sig .tc .vmem S256x64 .f32) (harg3 : arg3.IsWhole)
    (x : Vec F S256x768 .f32) (w : Vec F S768x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-- The proof data of the projection's pipeline on core `c`: arrays as the region finds them; each input buffer keeps
    its block, the output buffer holds the product of the two input blocks; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outBlock (blockAt V c 0 t) (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_out (c : Dev nD) (t : Fin cfg0.N) : (dat V c).after 2 t = outBlock (blockAt V c 0 t) (blockAt V c 1 t) := by dsimp only [dat]

theorem before_rows (c : Dev nD) (t : Fin cfg0.N) (d) : (dat V c).before 0 t d = blockAt V c 0 t :=
  before_rows_of V (dat V c) (A_eq V c 0) (after_rows V c) t d
theorem before_weight (c : Dev nD) (t : Fin cfg0.N) (d) : (dat V c).before 1 t d = blockAt V c 1 t :=
  before_weight_of V (dat V c) (A_eq V c 1) (after_weight V c) t d

/-- What the body is handed at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight]
  rw [show (dat V c).Φ t.succ = (dat V c).Φ t.castSucc from rfl,
    show (dat V c).owesAt () t.succ = (dat V c).owesAt () t.castSucc from rfl,
    after_rows, after_weight, after_out]
  iintro ⟨HΦ, Ho, ⟨%d0, H0⟩, ⟨%d1, H1⟩, ⟨%d2, H2⟩⟩
  iapply (sound_kernel c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.IdealDiff.lean ====
/-
  The pairwise-difference region of the idealized kernel: the second pallas_call reads, at grid point (b, i), the
  128 projected rows of batch b's i-th half, all 256 projected rows of batch b, and the bias, and writes the block
  out[b, 128 i + p, j, c] = proj[b, 128 i + p, c] − proj[b, j, c] + bias[c]. Two of its input windows read the same
  array (the projection), at different blocks. This module states, at any entry contents `V` of the core's buffers,
  what each window's staging buffer holds around the body at a grid point, the body's triple, the pipeline's proof
  data (the projection's array held in two halves of its share, one per window reading it) and the body obligation.
-/
import proofs.«179902_j43379169690302_1_alg».proof.Proof.Gen.KernelIdeal.Launch
import proofs.«179902_j43379169690302_1_alg».proof.Proof.Gen.KernelIdeal.Skeleton
import proofs.«179902_j43379169690302_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` addresses, read off the entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 query rows are in their staging buffer at every point. -/
theorem before_query_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The batch's 256 rows, fetched when the batch changes, are in their staging buffer at every point of the batch. -/
theorem before_batch_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias, fetched once, is in its staging buffer at every point. -/
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The body reads and writes each staging buffer whole. -/
abbrev rQuery : Rect S1x128x64 := Rect.unit (s := S1x128x64) ![0, 0, 0] S1x128x64.size inb_S1x128x64_S1x128x64_0_0_0
abbrev rBatch : Rect S1x256x64 := Rect.unit (s := S1x256x64) ![0, 0, 0] S1x256x64.size inb_S1x256x64_S1x256x64_0_0_0
abbrev rBias : Rect S64 := Rect.unit (s := S64) ![0] S64.size inb_S64_S64_0
abbrev rOut : Rect S1x128x256x64 := Rect.unit (s := S1x128x256x64) ![0, 0, 0, 0] S1x128x256x64.size inb_S1x128x256x64_S1x128x256x64_0_0_0_0

/-- What the body leaves in the output's staging buffer: its one whole-block store of the broadcast difference plus bias. -/
def outBlock (q : Vec F S1x128x64 .f32) (k : Vec F S1x256x64 .f32) (b : Vec F S64 .f32) : Vec F S1x128x256x64 .f32 :=
  View.canon [⟨rOut, k1_pay1 (View.ld q rQuery) (View.ld k rBatch) (View.ld b rBias)⟩]

theorem outCover (p0 : Vec F S1x128x256x64 .f32) (y : S1x128x256x64.Idx) :
    ∃ pc ∈ ([⟨rOut, p0⟩] : List (View.Piece (Elt F) S1x128x256x64 .f32)), y ∈ pc.1.set :=
  View.cover_of_tiled [⟨rOut, p0⟩] S1x128x256x64.size (by rfl) y

set_option maxHeartbeats 1000000 in
/-- The body's triple: from the three input buffers at read contents `q`, `k`, `b` and the output buffer at anything,
    the body runs to the inputs unchanged and the output at `outBlock q k b`. -/
theorem sound_kernel (c : Dev nD) (E : Set ℕ) (i : grid1.Coords)
    (arg2 : Memref sig .tc .vmem S1x128x64 .f32) (harg2 : arg2.IsWhole) (arg3 : Memref sig .tc .vmem S1x256x64 .f32) (harg3 : arg3.IsWhole)
    (arg4 : Memref sig .tc .vmem S64 .f32) (harg4 : arg4.IsWhole) (arg5 : Memref sig .tc .vmem S1x128x256x64 .f32) (harg5 : arg5.IsWhole)
    (q : Vec F S1x128x64 .f32) (k : Vec F S1x256x64 .f32) (b : Vec F S64 .f32) (K : PUnit → sProp 𝕄) :
    iprop(owns (c : Thread nD τ) arg2 fullShare q ∗ owns (c : Thread nD τ) arg3 fullShare k ∗ owns (c : Thread nD τ) arg4 fullShare b
        ∗ (∃ d, owns (c : Thread nD τ) arg5 fullShare d)
        ∗ (iprop(owns (c : Thread nD τ) arg2 fullShare q ∗ owns (c : Thread nD τ) arg3 fullShare k ∗ owns (c : Thread nD τ) arg4 fullShare b
            ∗ owns (c : Thread nD τ) arg5 fullShare (outBlock q k b)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The proof data of the difference's pipeline on core `c`: arrays as the region finds them; each input buffer keeps
    its block, the output buffer holds the body's result of the three input blocks; nothing owed. The projection's
    array is read by windows 0 and 1: each holds one half of its share; the bias is held whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outBlock (blockAt V c 0 t) (blockAt V c 1 t) (blockAt V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem after_query (c : Dev nD) (t : Fin cfg1.N) : (dat V c).after 0 t = blockAt V c 0 t := by dsimp only [dat]
theorem after_batch (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_out (c : Dev nD) (t : Fin cfg1.N) :
    (dat V c).after 3 t = outBlock (blockAt V c 0 t) (blockAt V c 1 t) (blockAt V c 2 t) := by dsimp only [dat]

theorem before_query (c : Dev nD) (t : Fin cfg1.N) (d) : (dat V c).before 0 t d = blockAt V c 0 t :=
  before_query_of V (dat V c) (A_eq V c 0) (after_query V c) t d
theorem before_batch (c : Dev nD) (t : Fin cfg1.N) (d) : (dat V c).before 1 t d = blockAt V c 1 t :=
  before_batch_of V (dat V c) (A_eq V c 1) (after_batch V c) t d
theorem before_bias (c : Dev nD) (t : Fin cfg1.N) (d) : (dat V c).before 2 t d = blockAt V c 2 t :=
  before_bias_of V (dat V c) (A_eq V c 2) (after_bias V c) t d

/-- The shares the two readers of the projection hold compose to the whole. -/
theorem share_query (c : Dev nD) : (dat V c).share 0 = fullShare.left := by unfold Dat.share; dsimp only [dat]; rfl
theorem share_batch (c : Dev nD) : (dat V c).share 1 = fullShare.right := by unfold Dat.share; dsimp only [dat]; rfl
theorem share_bias (c : Dev nD) : (dat V c).share 2 = fullShare := by unfold Dat.share; dsimp only [dat]; rfl
theorem share_out (c : Dev nD) : (dat V c).share 3 = fullShare := by unfold Dat.share; dsimp only [dat]; rfl

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_query, before_batch, before_bias]
  rw [show (dat V c).Φ t.succ = (dat V c).Φ t.castSucc from rfl,
    show (dat V c).owesAt () t.succ = (dat V c).owesAt () t.castSucc from rfl,
    after_query, after_batch, after_bias, after_out]
  iintro ⟨HΦ, Ho, ⟨%d0, H0⟩, ⟨%d1, H1⟩, ⟨%d2, H2⟩, ⟨%d3, H3⟩⟩
  iapply (sound_kernel c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.KernelIdeal.Diff

end
-- ==== Proof.IdealRun.lean ====
/-
  The run of the idealized kernel's @main: reshape the input to 1024 × 768 and transpose the weight, the projection
  region, reshape the projection to 4 × 256 × 64, the pairwise-difference region. The contents of the core's
  unscoped buffers are followed from the launch through the four items; each region is entered from the buffers at
  the contents the item before left and left at those contents updated by what its pipeline wrote back. The theorem
  `run` says that every weakly fair execution terminates with every unscoped buffer at the last of these contents;
  `frame` reads the three arguments off it.
-/
import proofs.«179902_j43379169690302_1_alg».proof.Proof.Gen.KernelIdeal.Launch
import proofs.«179902_j43379169690302_1_alg».proof.Proof.Gen.KernelIdeal.Skeleton
import proofs.«179902_j43379169690302_1_alg».proof.Proof.Gen.KernelIdeal.Points
import proofs.«179902_j43379169690302_1_alg».proof.Proof.IdealProj
import proofs.«179902_j43379169690302_1_alg».proof.Proof.IdealDiff
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev W0 : Dev nD → Valuation τ sig (Elt F) := fun c b => m (c, b)
/-- After the reshape of the input and the transpose of the weight. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its output array at what the write-backs leave, everything else as entered. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projExit_arr (c : Dev nD) (w : Fin cfg0.W) : (Proj.dat (V1 m) c).arrAt w cfg0.N = V2 m c (Pipeline.arrRef spec0 w) :=
  (W2_arr m c w).symm
theorem projExit_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the projection. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the difference region: the result array at what the write-backs leave, everything else as entered (the
    region's other arrays are inputs, never written). -/
def W4 (c : Dev nD) : Valuation τ sig (Elt F) :=
  Function.update (W3 m c) (Proc.devRef .tc main_v4) ((Diff.dat (V3 m) c).arrAt 3 cfg1.N)
theorem W4_out (c : Dev nD) : W4 m c (Proc.devRef .tc main_v4) = (Diff.dat (V3 m) c).arrAt 3 cfg1.N := by
  unfold W4; exact Function.update_self ..
theorem W4_of_ne (c : Dev nD) (b : Ref sig .tc) (hb : b ≠ main_v4) :
    W4 m c (Proc.devRef .tc b) = W3 m c (Proc.devRef .tc b) := by
  unfold W4
  exact Function.update_of_ne (StableHlo.devRef_ne_of_ne hb : (Proc.devRef .tc b : DevRef τ sig) ≠ Proc.devRef .tc main_v4) _ _
abbrev V4 : (c : Dev nD) → (b : Ref sig .tc) → Buf (Elt F) ((c : Thread nD τ).loc b) := fun c b => W4 m c b

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Diff.dat (V3 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The difference region's arrays: one buffer read through two windows

The projection's buffer, whole at the full share, is the two halves of that share, one for each window that
reads it; at the region's exit the halves, both still at the entry contents, make the full share again. -/

theorem diff_arrays_in (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((Diff.dat V c).arrays ((Diff.dat V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [bigSep_eq_bigSepL_of_eq [main_v3, main_arg2, main_v4] (by decide) (by decide), bigSep_W1]
  rw [Diff.share_query, Diff.share_batch, Diff.share_bias, Diff.share_out,
    show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ]
  rw [show (bigSepL [main_v3, main_arg2, main_v4] fun b => (((c : Thread nD τ).loc b) ↦{fullShare} V c b : sProp 𝕄))
      = iprop((((c : Thread nD τ).loc main_v3) ↦{fullShare} V c main_v3) ∗ (((c : Thread nD τ).loc main_arg2) ↦{fullShare} V c main_arg2)
          ∗ (((c : Thread nD τ).loc main_v4) ↦{fullShare} V c main_v4)) from rfl]
  iintro ⟨H3, H2, H4⟩
  have hsh : ((((c : Thread nD τ).loc main_v3) ↦{fullShare} V c main_v3 : sProp 𝕄))
      ⊢ iprop((((c : Thread nD τ).loc main_v3) ↦{fullShare.left} V c main_v3) ∗ (((c : Thread nD τ).loc main_v3) ↦{fullShare.right} V c main_v3)) :=
    (pointsTo_share (PosShare.mem_left_op_right fullShare)).1
  ihave Hs := hsh $$ H3
  icases Hs with ⟨Hl, Hr⟩
  isplitl [Hl]; · iexact Hl
  isplitl [Hr]; · iexact Hr
  isplitl [H2]; · iexact H2
  iexact H4

theorem diff_arrays_out (c : Dev nD) (V : (c : Dev nD) → (b : Ref sig .tc) → Buf (Elt F) ((c : Thread nD τ).loc b))
    (V' : (b : Ref sig .tc) → Buf (Elt F) ((c : Thread nD τ).loc b))
    (hout : V' main_v4 = (Diff.dat V c).arrAt 3 cfg1.N) (hrest : ∀ b, b ≠ main_v4 → V' b = V c b) :
    iprop((Diff.dat V c).arrays ((Diff.dat V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · have e0 : (Diff.dat V c).arrAt 0 cfg1.N = V' main_v3 :=
      (((Diff.dat V c).arrAt_in 0 rfl _).trans (Diff.A_eq V c 0)).trans (hrest main_v3 (by decide)).symm
    have e1 : (Diff.dat V c).arrAt 1 cfg1.N = V' main_v3 :=
      (((Diff.dat V c).arrAt_in 1 rfl _).trans (Diff.A_eq V c 1)).trans (hrest main_v3 (by decide)).symm
    have e2 : (Diff.dat V c).arrAt 2 cfg1.N = V' main_arg2 :=
      (((Diff.dat V c).arrAt_in 2 rfl _).trans (Diff.A_eq V c 2)).trans (hrest main_arg2 (by decide)).symm
    unfold Pipeline.arrBufs Dat.arrays
    rw [bigSep_eq_bigSepL_of_eq [main_v3, main_arg2, main_v4] (by decide) (by decide), bigSep_W1]
    rw [Diff.share_query, Diff.share_batch, Diff.share_bias, Diff.share_out,
      show (cfg1.win 0).arr.view.set = Finset.univ from (arr_whole1 0).set_eq_univ,
      show (cfg1.win 2).arr.view.set = Finset.univ from (arr_whole1 2).set_eq_univ,
      show (cfg1.win 3).arr.view.set = Finset.univ from (arr_whole1 3).set_eq_univ]
    rw [show (bigSepL [main_v3, main_arg2, main_v4] fun b => (((c : Thread nD τ).loc b) ↦{fullShare} V' b : sProp 𝕄))
        = iprop((((c : Thread nD τ).loc main_v3) ↦{fullShare} V' main_v3) ∗ (((c : Thread nD τ).loc main_arg2) ↦{fullShare} V' main_arg2)
            ∗ (((c : Thread nD τ).loc main_v4) ↦{fullShare} V' main_v4)) from rfl]
    dsimp only
    rw [e0, e1, e2, ← hout]
    have hjoin : iprop((((c : Thread nD τ).loc main_v3) ↦{fullShare.left} V' main_v3) ∗ (((c : Thread nD τ).loc main_v3) ↦{fullShare.right} V' main_v3))
        ⊢ ((((c : Thread nD τ).loc main_v3) ↦{fullShare} V' main_v3 : sProp 𝕄)) :=
      (pointsTo_share (PosShare.mem_left_op_right fullShare)).2
    iintro ⟨Hl, Hr, H2, H4⟩
    isplitl [Hl Hr]
    · iapply hjoin; isplitl [Hl] <;> iassumption
    isplitl [H2]; · iexact H2
    iexact H4
  · unfold Pipeline.unscopedRest
    exact bigSep_congr fun b hb => by
      rw [hrest b fun e => (Finset.mem_sdiff.mp hb).2 (e ▸ Finset.mem_image.mpr ⟨3, Finset.mem_univ _, rfl⟩)]

/-! ## The regions as segments -/

set_option backward.isDefEq.respectTransparency.types false in
/-- The projection region: entered from every unscoped buffer at `W1`, left at `W2`. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The difference region: entered from every unscoped buffer at `W3`, left at `W4`. -/
def regDiff : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Diff.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := diff_arrays_in (F := F) c (V3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := diff_arrays_out (F := F) c (V3 m) (V4 m c) (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh (W0 m)),
    .region (regProj m),
    .host (hseg hostOps1 hostOps1_sub hostOps1_fresh (W2 m)),
    .region (regDiff m) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    unscoped buffer of every core ends at the last contents of the fold, `W4`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- The first stretch writes only the reshaped input and the transposed weight; the second only the reshaped projection. -/
theorem stretch0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.unary_writes, StableHlo.reshape_writes, Finset.singleton_subset_iff, List.mem_toFinset]; exact List.mem_map_of_mem (by decide), by simp only [StableHlo.unary_writes, StableHlo.reshape_writes, Finset.singleton_subset_iff, List.mem_toFinset]; exact List.mem_map_of_mem (by decide)⟩
theorem stretch1_writes : (hostOps1 : List (HloOp τ sig (Elt F))).Forall fun op => op.writes ⊆ (([main_v3] : List (Ref sig .tc)).map (Proc.devRef (τ := τ) .tc)).toFinset := by
  simp only [List.Forall]; exact (by simp only [StableHlo.unary_writes, StableHlo.reshape_writes, Finset.singleton_subset_iff, List.mem_toFinset]; exact List.mem_map_of_mem (by decide))

theorem W1_of (c : Dev nD) (b : Ref sig .tc) (h : b ∉ ([main_v0, main_v1] : List (Ref sig .tc))) :
    W1 m c (Proc.devRef .tc b) = W0 m c (Proc.devRef .tc b) :=
  StableHlo.after_of_writes_sub hostOps0 _ stretch0_writes h
theorem W3_of (c : Dev nD) (b : Ref sig .tc) (h : b ∉ ([main_v3] : List (Ref sig .tc))) :
    W3 m c (Proc.devRef .tc b) = W2 m c (Proc.devRef .tc b) :=
  StableHlo.after_of_writes_sub hostOps1 _ stretch1_writes h

/-- A buffer no item writes — not the two reshapes' or the transpose's result, not a region's output — ends as launched. -/
theorem W4_kept (c : Dev nD) (b : Ref sig .tc) (h4 : b ≠ main_v4) (h3 : b ∉ ([main_v3] : List (Ref sig .tc)))
    (h2 : ∀ w, Pipeline.arrRef spec0 w ≠ b) (h1 : b ∉ ([main_v0, main_v1] : List (Ref sig .tc))) :
    W4 m c (Proc.devRef .tc b) = m ((c : Thread nD τ).loc b) :=
  (W4_of_ne m c b h4).trans <| (W3_of m c b h3).trans <| (W2_of_ne m c b h2).trans <| (W1_of m c b h1).trans rfl

/-- The frame: every weakly fair execution terminates, nothing faulting, the three arguments unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩)
    (run m ρ)

end Cert.KernelIdeal.Run

end
-- ==== Proof.ProjValue.lean ====
/-
  What the projection region leaves in its result array, as one function of the arrays it reads: at (r, c) the sum
  over k of the flattened input's entry (r, k) times the transposed weight's entry (k, c). Each grid point's
  write-back is the block of 256 rows of that one function its index map names, and the four blocks tile the array.
-/
import proofs.«179902_j43379169690302_1_alg».proof.Proof.IdealProj
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The product array: rows of `A` (1024 × 768) against columns of `B` (768 × 64). -/
def projArr (A : S1024x768.Idx → EReal) (B : S768x64.Idx → EReal) : S1024x64.Idx → EReal :=
  fun i => ∑ k : Fin 768, A (ix2 (⟨(i 0).val, (i 0).isLt⟩ : Fin 1024) k) * B (ix2 k (⟨(i 1).val, (i 1).isLt⟩ : Fin 64))

/-! ## The body's product at an index -/

/-- The product's dimension numbers: the left operand's axis 1 contracts with the right operand's axis 0. -/
abbrev D := dot_S256x768_S768x64_S256x64_1_0_0_1_n_n

theorem lhs_row (i : S256x64.Idx) (q : dot_S256x768_S768x64_S256x64_1_0_0_1_n_n.contr.Idx) :
    (dot_S256x768_S768x64_S256x64_1_0_0_1_n_n.lhsIdx i q 0).val = (i 0).val := by
  unfold DotDims.lhsIdx
  rw [dif_neg (show ¬(0 : Fin S256x768.rank) ∈ dot_S256x768_S768x64_S256x64_1_0_0_1_n_n.lhsBatch by decide), dif_pos (show (0 : Fin S256x768.rank) ∈ dot_S256x768_S768x64_S256x64_1_0_0_1_n_n.lhsNonContracting by decide)]
  rfl
theorem lhs_contr (i : S256x64.Idx) (q : dot_S256x768_S768x64_S256x64_1_0_0_1_n_n.contr.Idx) :
    (dot_S256x768_S768x64_S256x64_1_0_0_1_n_n.lhsIdx i q 1).val = (q ⟨0, by decide⟩).val :=
  dot_S256x768_S768x64_S256x64_1_0_0_1_n_n.lhsIdx_val_of_single rfl i q
theorem rhs_contr (i : S256x64.Idx) (q : dot_S256x768_S768x64_S256x64_1_0_0_1_n_n.contr.Idx) :
    (dot_S256x768_S768x64_S256x64_1_0_0_1_n_n.rhsIdx i q 0).val = (q ⟨0, by decide⟩).val :=
  dot_S256x768_S768x64_S256x64_1_0_0_1_n_n.rhsIdx_val_of_single rfl i q
theorem rhs_col (i : S256x64.Idx) (q : dot_S256x768_S768x64_S256x64_1_0_0_1_n_n.contr.Idx) :
    (dot_S256x768_S768x64_S256x64_1_0_0_1_n_n.rhsIdx i q 1).val = (i 1).val := by
  unfold DotDims.rhsIdx
  rw [dif_neg (show ¬(1 : Fin S768x64.rank) ∈ dot_S256x768_S768x64_S256x64_1_0_0_1_n_n.rhsBatch by decide), dif_pos (show (1 : Fin S768x64.rank) ∈ dot_S256x768_S768x64_S256x64_1_0_0_1_n_n.rhsNonContracting by decide)]
  rfl

/-- The body's stored value at (p, q): row p of the input block against column q of the weight block. -/
theorem payload_apply (x : Vec Ideal S256x768 .f32) (w : Vec Ideal S768x64 .f32) (p : Fin 256) (q : Fin 64) :
    k0_pay1 (F := Ideal) x w (ix2 p q) = ∑ k : Fin 768, x (ix2 p k) * w (ix2 k q) := by
  unfold k0_pay1
  rw [shapeCast_self, shapeCast_self]
  show FloatOps.matmul dot_S256x768_S768x64_S256x64_1_0_0_1_n_n none x w (constant (F := Ideal) S256x64 .f32 0x00000000#32) (ix2 p q) = _
  rw [Ideal.matmul_constant_zero_apply, ← Equiv.sum_comp (contrEquiv1 dot_S256x768_S768x64_S256x64_1_0_0_1_n_n 768 rfl rfl).symm]
  refine Finset.sum_congr rfl fun k _ => ?_
  have hk := contrEquiv1_symm_val dot_S256x768_S768x64_S256x64_1_0_0_1_n_n 768 rfl rfl k
  have el : dot_S256x768_S768x64_S256x64_1_0_0_1_n_n.lhsIdx (ix2 p q) ((contrEquiv1 dot_S256x768_S768x64_S256x64_1_0_0_1_n_n 768 rfl rfl).symm k) = ix2 p k := funext fun a => Fin.ext (by
    match a with
    | ⟨0, _⟩ => exact lhs_row _ _
    | ⟨1, _⟩ => exact (lhs_contr _ _).trans hk)
  have er : dot_S256x768_S768x64_S256x64_1_0_0_1_n_n.rhsIdx (ix2 p q) ((contrEquiv1 dot_S256x768_S768x64_S256x64_1_0_0_1_n_n 768 rfl rfl).symm k) = ix2 k q := funext fun a => Fin.ext (by
    match a with
    | ⟨0, _⟩ => exact (rhs_contr _ _).trans hk
    | ⟨1, _⟩ => exact rhs_col _ _)
  rw [el, er]

/-! ## From blocks to the array -/

theorem hz2 : (![0, 0] : Fin 2 → Nat) = fun _ => 0 := funext fun a => by fin_cases a <;> rfl

/-- The printed index maps over the four grid points: the input's row block moves with the output's, everything else
    stays at block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Each of the four row blocks is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- The product of two blocks that are read off arrays `A`, `B` at point `t`'s blocks is point `t`'s block of the
    product array of `A` and `B`. -/
theorem block_eq (A : S1024x768.Idx → EReal) (B : S768x64.Idx → EReal) (t : Fin cfg0.N)
    (xb : Vec Ideal S256x768 .f32) (wb : Vec Ideal S768x64 .f32)
    (hx : ∀ y : S256x768.Idx, xb y = A (((cfg0.win 0).blk t).view.emb y))
    (hw : ∀ y : S768x64.Idx, wb y = B (((cfg0.win 1).blk t).view.emb y)) (j : S256x64.Idx) :
    k0_pay1 (F := Ideal) xb wb j = projArr A B (((cfg0.win 2).blk t).view.emb j) := by
  obtain ⟨e0, e1, e2, e3, e4, e5⟩ := idx_facts t
  obtain ⟨p, q, rfl⟩ : ∃ (p : Fin 256) (q : Fin 64), j = ix2 p q := ⟨j 0, j 1, eq_ix2 j⟩
  refine (payload_apply xb wb p q).trans ?_
  unfold projArr
  refine Finset.sum_congr rfl fun k _ => ?_
  rw [hx, hw]
  have h0 : ((cfg0.win 0).blk t).view.emb (ix2 p k)
      = ix2 (⟨((((cfg0.win 2).blk t).view.emb (ix2 p q)) 0).val, ((((cfg0.win 2).blk t).view.emb (ix2 p q)) 0).isLt⟩ : Fin 1024) k := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 768 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 64) := by
    funext a; apply Fin.ext
    match a with
    | ⟨0, _⟩ => show win0_1.index t (0 : Fin 2) * 768 + 1 * k.val = k.val; omega
    | ⟨1, _⟩ => show win0_1.index t (1 : Fin 2) * 64 + 1 * q.val = win0_2.index t (1 : Fin 2) * 64 + 1 * q.val; omega
  rw [h0, h1]

/-- What grid point `t` writes back is block `t` of the product array of the arrays as the region finds them. -/
theorem flushed_eq (c : Dev nD) (t : Fin cfg0.N) :
    (Proj.dat V c).flushed 2 t = ((cfg0.win 2).blk t).view.read (Elt Ideal) (projArr (V c main_v0) (V c main_v1)) := by
  show (cfg0.win 2).cut (grid0.coords t) ((Proj.dat V c).after 2 t) = _
  rw [Proj.after_out]
  unfold Proj.outBlock
  rw [View.canon_unit_zero hz2]
  simp only [View.ld_unit_zero (S := S256x768) hz2, View.ld_unit_zero (S := S768x64) hz2]
  funext j
  exact block_eq (V c main_v0) (V c main_v1) t (Proj.blockAt V c 0 t) (Proj.blockAt V c 1 t) (fun _ => rfl) (fun _ => rfl) j

/-- An index of the array is in point `t`'s block iff each coordinate is in the block's range on its axis. -/
theorem mem_blk (t : Fin cfg0.N) (i : S1024x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v2).slice (win0_2.rect t)).set ↔ _
  rw [View.set_slice_whole, Rect.mem_set_unit]
  exact Iff.rfl

/-- Every index of the result array lies in some grid point's block. -/
theorem cover (i : S1024x64.Idx) : ∃ t : Fin cfg0.N, (cfg0.win 2).flush t = true ∧ i ∈ ((cfg0.win 2).blk t).view.set := by
  have hi0 : (i 0).val < 1024 := (i 0).isLt
  have hi1 : (i 1).val < 64 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

/-- The projection array after the region. -/
theorem final (c : Dev nD) : (Proj.dat V c).arrAt 2 cfg0.N = projArr (V c main_v0) (V c main_v1) :=
  (Proj.dat V c).arrAt_eq_of_cover 2 (projArr (V c main_v0) (V c main_v1)) (fun t _ => flushed_eq V c t) cover

end Cert.KernelIdeal.ProjValue

end
-- ==== Proof.DiffValue.lean ====
/-
  What the pairwise-difference region leaves in its result array, as one function of the arrays it reads: at
  (b, i, j, c) the projection's row i of batch b minus its row j, plus the bias, at class c. Each grid point's
  write-back is the block of that one function its index map names, and the blocks tile the result array.
-/
import proofs.«179902_j43379169690302_1_alg».proof.Proof.IdealDiff
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DiffValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The result array as a function of the projection `P` (4 × 256 × 64) and the bias (64). -/
def diffArr (P : S4x256x64.Idx → EReal) (bias : S64.Idx → EReal) : S4x256x256x64.Idx → EReal :=
  fun o => P (ix3 (⟨(o 0).val, (o 0).isLt⟩ : Fin 4) (⟨(o 1).val, (o 1).isLt⟩ : Fin 256) (⟨(o 3).val, (o 3).isLt⟩ : Fin 64))
    - P (ix3 (⟨(o 0).val, (o 0).isLt⟩ : Fin 4) (⟨(o 2).val, (o 2).isLt⟩ : Fin 256) (⟨(o 3).val, (o 3).isLt⟩ : Fin 64))
    + bias (ix1 (⟨(o 3).val, (o 3).isLt⟩ : Fin 64))

/-- The body's stored value at an index of the output block: row `p` of the 128 query rows minus row `j` of the
    batch's 256 rows, plus the bias, at class `c`. -/
theorem payload_apply (q : Vec Ideal S1x128x64 .f32) (k : Vec Ideal S1x256x64 .f32) (b : Vec Ideal S64 .f32)
    (p : Fin 128) (j : Fin 256) (c : Fin 64) :
    k1_pay1 (F := Ideal) q k b (ix4 (0 : Fin 1) p j c)
      = q (ix3 (0 : Fin 1) p c) - k (ix3 (0 : Fin 1) j c) + b (ix1 c) := by
  unfold k1_pay1
  refine (shapeCast_abc_1abc_apply _ _ (0 : Fin 1) p j c).trans ?_
  show (broadcastTo S128x256x64 _ _ (ix3 p j c) - broadcastTo S128x256x64 _ _ (ix3 p j c))
      + broadcastTo S128x256x64 _ _ (ix3 p j c) = _
  refine congrArg₂ (· + ·) (congrArg₂ (· - ·) ?_ ?_) ?_
  · -- the query row, constant along the second axis
    refine (broadcastTo_apply _ _ _ (ix3 p (0 : Fin 1) c) (fun a => ?_)).trans ?_
    · match a with
      | ⟨0, _⟩ => exact (if_neg (show ¬ ((128 : Nat) = 1) by decide)).symm
      | ⟨1, _⟩ => exact (if_pos rfl).symm
      | ⟨2, _⟩ => exact (if_neg (show ¬ ((64 : Nat) = 1) by decide)).symm
    refine (shapeCast_apply _ _ _ (ix2 p c) ?_).trans ?_
    · rw [Shape.rowMajor_val_two, Shape.rowMajor_val_three]
      show p.val * 64 + c.val = (p.val * 1 + 0) * 64 + c.val
      omega
    exact shapeCast_1ab_ab_apply _ _ p c
  · -- the batch row, constant along the first axis
    refine (broadcastTo_apply _ _ _ (ix3 (0 : Fin 1) j c) (fun a => ?_)).trans ?_
    · match a with
      | ⟨0, _⟩ => exact (if_pos rfl).symm
      | ⟨1, _⟩ => exact (if_neg (show ¬ ((256 : Nat) = 1) by decide)).symm
      | ⟨2, _⟩ => exact (if_neg (show ¬ ((64 : Nat) = 1) by decide)).symm
    refine (shapeCast_ab_1ab_apply _ _ (0 : Fin 1) j c).trans ?_
    exact shapeCast_1ab_ab_apply _ _ j c
  · -- the bias, constant along the first two axes
    refine (broadcastTo_apply _ _ _ (ix3 (0 : Fin 1) (0 : Fin 1) c) (fun a => ?_)).trans ?_
    · match a with
      | ⟨0, _⟩ => exact (if_pos rfl).symm
      | ⟨1, _⟩ => exact (if_pos rfl).symm
      | ⟨2, _⟩ => exact (if_neg (show ¬ ((64 : Nat) = 1) by decide)).symm
    refine shapeCast_apply _ _ _ (ix1 c) ?_
    rw [Shape.rowMajor_val_one, Shape.rowMajor_val_three]
    show c.val = ((0 : Fin 1).val * 1 + (0 : Fin 1).val) * 64 + c.val
    simp

/-- The zero offsets of the body's whole-buffer loads and store, spelt as constant functions. -/
private theorem hz4 : (![0, 0, 0, 0] : Fin 4 → Nat) = fun _ => 0 := funext fun a => by fin_cases a <;> rfl
private theorem hz3 : (![0, 0, 0] : Fin 3 → Nat) = fun _ => 0 := funext fun a => by fin_cases a <;> rfl
private theorem hz1 : (![0] : Fin 1 → Nat) = fun _ => 0 := funext fun a => by fin_cases a <;> rfl

/-- The index maps, decided over the eight grid points: the query block moves with the output block on the batch and
    row-half axes, the batch block on the batch axis only, the bias not at all; the output's block indices stay in range. -/
private theorem idx_facts : ∀ t : Fin cfg1.N,
    win1_0.index t (0 : Fin 3) = win1_3.index t (0 : Fin 4)
    ∧ win1_0.index t (1 : Fin 3) = win1_3.index t (1 : Fin 4)
    ∧ win1_0.index t (2 : Fin 3) = 0
    ∧ win1_1.index t (0 : Fin 3) = win1_3.index t (0 : Fin 4)
    ∧ win1_1.index t (1 : Fin 3) = 0
    ∧ win1_1.index t (2 : Fin 3) = 0
    ∧ win1_2.index t (0 : Fin 1) = 0
    ∧ win1_3.index t (0 : Fin 4) ≤ 3
    ∧ win1_3.index t (1 : Fin 4) ≤ 1
    ∧ win1_3.index t (2 : Fin 4) = 0
    ∧ win1_3.index t (3 : Fin 4) = 0 :=
  (by decide +kernel : ∀ t : Fin grid1.N, _)

/-- At an index of the output block, the body's value of the three loaded blocks is `diffArr` of the arrays at the
    block's place in the result array. -/
private theorem block_eq (c : Dev nD) (t : Fin cfg1.N) (y : S1x128x256x64.Idx) :
    k1_pay1 (F := Ideal) (Diff.blockAt V c 0 t) (Diff.blockAt V c 1 t) (Diff.blockAt V c 2 t) y
      = diffArr (V c main_v3) (V c main_arg2) (((cfg1.win 3).blk t).view.emb y) := by
  obtain ⟨e00, e01, e02, e10, e11, e12, e20, b0, b1, e32, e33⟩ := idx_facts t
  have h0 : (y 0).val < 1 := (y 0).isLt
  have h1 : (y 1).val < 128 := (y 1).isLt
  have h2 : (y 2).val < 256 := (y 2).isLt
  have h3 : (y 3).val < 64 := (y 3).isLt
  have hy : y = ix4 (0 : Fin 1) (y 1) (y 2) (y 3) := by
    funext a
    match a with
    | ⟨0, _⟩ => exact Fin.ext (show (y 0).val = 0 by omega)
    | ⟨1, _⟩ => rfl
    | ⟨2, _⟩ => rfl
    | ⟨3, _⟩ => rfl
  rw [hy]
  refine (payload_apply _ _ _ (y 1) (y 2) (y 3)).trans ?_
  unfold diffArr
  refine congrArg₂ (· + ·) (congrArg₂ (· - ·) ?_ ?_) ?_
  · show V c main_v3 (((cfg1.win 0).blk t).view.emb (ix3 (0 : Fin 1) (y 1) (y 3))) = _
    refine congrArg _ (funext fun a => Fin.ext ?_)
    match a with
    | ⟨0, _⟩ => show win1_0.index t (0 : Fin 3) * 1 + 1 * 0 = win1_3.index t (0 : Fin 4) * 1 + 1 * 0; omega
    | ⟨1, _⟩ => show win1_0.index t (1 : Fin 3) * 128 + 1 * (y 1).val = win1_3.index t (1 : Fin 4) * 128 + 1 * (y 1).val; omega
    | ⟨2, _⟩ => show win1_0.index t (2 : Fin 3) * 64 + 1 * (y 3).val = win1_3.index t (3 : Fin 4) * 64 + 1 * (y 3).val; omega
  · show V c main_v3 (((cfg1.win 1).blk t).view.emb (ix3 (0 : Fin 1) (y 2) (y 3))) = _
    refine congrArg _ (funext fun a => Fin.ext ?_)
    match a with
    | ⟨0, _⟩ => show win1_1.index t (0 : Fin 3) * 1 + 1 * 0 = win1_3.index t (0 : Fin 4) * 1 + 1 * 0; omega
    | ⟨1, _⟩ => show win1_1.index t (1 : Fin 3) * 256 + 1 * (y 2).val = win1_3.index t (2 : Fin 4) * 256 + 1 * (y 2).val; omega
    | ⟨2, _⟩ => show win1_1.index t (2 : Fin 3) * 64 + 1 * (y 3).val = win1_3.index t (3 : Fin 4) * 64 + 1 * (y 3).val; omega
  · show V c main_arg2 (((cfg1.win 2).blk t).view.emb (ix1 (y 3))) = _
    refine congrArg _ (funext fun a => Fin.ext ?_)
    match a with
    | ⟨0, _⟩ => show win1_2.index t (0 : Fin 1) * 64 + 1 * (y 3).val = win1_3.index t (3 : Fin 4) * 64 + 1 * (y 3).val; omega

/-- What grid point `t` writes back is block `t` of `diffArr` of the arrays as the region finds them. -/
theorem flushed_eq (c : Dev nD) (t : Fin cfg1.N) :
    (Diff.dat V c).flushed 3 t = ((cfg1.win 3).blk t).view.read (Elt Ideal) (diffArr (V c main_v3) (V c main_arg2)) := by
  show (cfg1.win 3).cut (grid1.coords t) ((Diff.dat V c).after 3 t) = _
  rw [Diff.after_out]
  unfold Diff.outBlock
  rw [View.canon_unit_zero hz4]
  simp only [View.ld_unit_zero (S := S1x128x64) hz3, View.ld_unit_zero (S := S1x256x64) hz3, View.ld_unit_zero (S := S64) hz1]
  funext y
  exact block_eq V c t y

/-- An index of the result array is in point `t`'s block iff each coordinate is in the block's range on its axis. -/
private theorem mem_blk (t : Fin cfg1.N) (i : S4x256x256x64.Idx) :
    i ∈ ((cfg1.win 3).blk t).view.set ↔ ∀ a : Fin 4, win1_3.index t a * S1x128x256x64.size a ≤ (i a).val
      ∧ (i a).val < win1_3.index t a * S1x128x256x64.size a + S1x128x256x64.size a := by
  show i ∈ ((View.whole main_v4).slice (win1_3.rect t)).set ↔ _
  rw [View.set_slice_whole, Rect.mem_set_unit]
  exact Iff.rfl

/-- Every block of the result array (batch, row half) is some grid point's. -/
private theorem idx_onto : ∀ (q0 : Fin 4) (q1 : Fin 2), ∃ t : Fin cfg1.N, win1_3.index t = ![q0.val, q1.val, 0, 0] :=
  (by decide +kernel : ∀ (q0 : Fin 4) (q1 : Fin 2), ∃ t : Fin grid1.N, win1_3.index t = ![q0.val, q1.val, 0, 0])

/-- Every index of the result array lies in some grid point's block. -/
theorem cover (i : S4x256x256x64.Idx) :
    ∃ t : Fin cfg1.N, (cfg1.win 3).flush t = true ∧ i ∈ ((cfg1.win 3).blk t).view.set := by
  have hi0 : (i 0).val < 4 := (i 0).isLt
  have hi1 : (i 1).val < 256 := (i 1).isLt
  have hi2 : (i 2).val < 256 := (i 2).isLt
  have hi3 : (i 3).val < 64 := (i 3).isLt
  obtain ⟨t, ht⟩ := idx_onto ⟨(i 0).val, hi0⟩ ⟨(i 1).val / 128, by omega⟩
  have q0 : win1_3.index t (0 : Fin 4) = (i 0).val := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 256 ≤ (i 2).val ∧ (i 2).val < win1_3.index t (2 : Fin 4) * 256 + 256; omega
  | ⟨3, _⟩ => show win1_3.index t (3 : Fin 4) * 64 ≤ (i 3).val ∧ (i 3).val < win1_3.index t (3 : Fin 4) * 64 + 64; omega

/-- The result array after the region. -/
theorem final (c : Dev nD) : (Diff.dat V c).arrAt 3 cfg1.N = diffArr (V c main_v3) (V c main_arg2) :=
  (Diff.dat V c).arrAt_eq_of_cover 3 (diffArr (V c main_v3) (V c main_arg2)) (fun t _ => flushed_eq V c t) (cover)

end Cert.KernelIdeal.DiffValue

end
-- ==== Proof.Spec.lean ====
/-
  The result both programs compute, as one function of the three argument arrays over the extended reals:
  out[b, i, j, c] = Σ_k (x[b, i, k] − x[b, j, k]) · w[c, k] + bias[c]. The kernel computes the projection
  p[b, s, c] = Σ_k x[b, s, k] · w[c, k] once and forms p[b, i, c] − p[b, j, c] + bias[c]; the two agree when every
  entry of x and w is a real number (the extended reals do not distribute a product over a difference at infinities).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 256, 768]⟩
abbrev SW : Shape := ⟨2, ![64, 768]⟩
abbrev SB : Shape := ⟨1, ![64]⟩
abbrev SO : Shape := ⟨4, ![4, 256, 256, 64]⟩

/-- The projection of row `s` of batch `b` onto class `c`. -/
def proj (x : SX.Idx → EReal) (w : SW.Idx → EReal) (b : Fin 4) (s : Fin 256) (c : Fin 64) : EReal :=
  ∑ k : Fin 768, x (ix3 b s k) * w (ix2 c k)

/-- The kernel's arrangement: the difference of two projections, plus the bias. -/
def diffOfProj (x : SX.Idx → EReal) (w : SW.Idx → EReal) (bias : SB.Idx → EReal) (b : Fin 4) (i j : Fin 256) (c : Fin 64) : EReal :=
  proj x w b i c - proj x w b j c + bias (ix1 c)

/-- The reference's arrangement: the projection of the difference, plus the bias. -/
def projOfDiff (x : SX.Idx → EReal) (w : SW.Idx → EReal) (bias : SB.Idx → EReal) (b : Fin 4) (i j : Fin 256) (c : Fin 64) : EReal :=
  (∑ k : Fin 768, (x (ix3 b i k) - x (ix3 b j k)) * w (ix2 c k)) + bias (ix1 c)

/-- The result array, in the kernel's arrangement. -/
def G (x : SX.Idx → EReal) (w : SW.Idx → EReal) (bias : SB.Idx → EReal) : SO.Idx → EReal :=
  fun o => diffOfProj x w bias ⟨(o 0).val, (o 0).isLt⟩ ⟨(o 1).val, (o 1).isLt⟩ ⟨(o 2).val, (o 2).isLt⟩ ⟨(o 3).val, (o 3).isLt⟩

/-- The coercion of a finite sum of reals is the sum of the coercions. -/
private theorem coe_finsum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over real entries of `x` and `w` the two arrangements agree (whatever the bias). -/
theorem projOfDiff_eq_diffOfProj (x : SX.Idx → EReal) (w : SW.Idx → EReal) (bias : SB.Idx → EReal)
    (hx : ∀ j, ∃ r : ℝ, x j = (r : EReal)) (hw : ∀ j, ∃ r : ℝ, w j = (r : EReal))
    (b : Fin 4) (i j : Fin 256) (c : Fin 64) :
    projOfDiff x w bias b i j c = diffOfProj x w bias b i j c := by
  choose xr hxr using hx
  choose wr hwr using hw
  unfold projOfDiff diffOfProj proj
  refine congrArg (· + bias (ix1 c)) ?_
  simp only [hxr, hwr]
  simp only [← EReal.coe_sub, ← EReal.coe_mul, ← coe_finsum]
  refine congrArg (fun r : ℝ => (r : EReal)) ?_
  rw [← Finset.sum_sub_distrib]
  exact Finset.sum_congr rfl fun k _ => sub_mul _ _ _

end Cert.Spec

end
-- ==== Proof.KernelValue.lean ====
/-
  The idealized kernel's result as one function of its three arguments. Following the buffers through @main: the
  flattened input's entry (256 b + s, k) is x[b, s, k]; the transposed weight's entry (k, c) is w[c, k]; the projection
  region leaves p(256 b + s, c) = Σ_k x[b, s, k] · w[c, k]; the reshaped projection's entry (b, s, c) is that; the
  difference region leaves out[b, i, j, c] = p[b, i, c] − p[b, j, c] + bias[c] — the specification's `G`.
-/
import proofs.«179902_j43379169690302_1_alg».proof.Proof.IdealRun
import proofs.«179902_j43379169690302_1_alg».proof.Proof.ProjValue
import proofs.«179902_j43379169690302_1_alg».proof.Proof.DiffValue
import proofs.«179902_j43379169690302_1_alg».proof.Proof.Spec
import Idealize.ShloMosaic.Lib.StableHlo.Run

set_option maxRecDepth 16384

noncomputable section

open scoped BigOperators

namespace Cert.KernelIdeal.KernelValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Run

/-! ## The layout operations of @main, read at an index -/

/-- The flattened input: row 256 b + s of the 1024 is row s of batch b. -/
theorem flatten_apply (x : S4x256x768.Idx → EReal) (b : Fin 4) (s : Fin 256) (k : Fin 768) :
    shapeCast S1024x768 x shapeCasts_S4x256x768_S1024x768 (ix2 (⟨b.val * 256 + s.val, by omega⟩ : Fin 1024) k) = x (ix3 b s k) := by
  refine shapeCast_apply x _ _ (ix3 b s k) ?_
  rw [Shape.rowMajor_val_three, Shape.rowMajor_val_two]
  rfl

/-- The transposed weight: entry (k, c) is the weight's entry (c, k). -/
theorem transpose_apply' (w : S64x768.Idx → EReal) (k : Fin 768) (c : Fin 64) :
    transpose S768x64 [1, 0] w transposes_S64x768_S768x64_1_0 (ix2 k c) = w (ix2 c k) := by
  refine transpose_apply _ w _ _ (ix2 c k) fun b => ?_
  match b with
  | ⟨0, _⟩ => rfl
  | ⟨1, _⟩ => rfl

/-- The projection reshaped to batches: entry (b, s, c) is row 256 b + s, column c. -/
theorem unflatten_apply (P : S1024x64.Idx → EReal) (b : Fin 4) (s : Fin 256) (c : Fin 64) :
    shapeCast S4x256x64 P shapeCasts_S1024x64_S4x256x64 (ix3 b s c) = P (ix2 (⟨b.val * 256 + s.val, by omega⟩ : Fin 1024) c) := by
  refine shapeCast_apply P _ _ (ix2 (⟨b.val * 256 + s.val, by omega⟩ : Fin 1024) c) ?_
  rw [Shape.rowMajor_val_three, Shape.rowMajor_val_two]
  rfl

/-- The reshaped product of the flattened input and the transposed weight, at (b, s, c), is the specification's
    projection. -/
theorem proj_entry (x : S4x256x768.Idx → EReal) (w : S64x768.Idx → EReal) (b : Fin 4) (s : Fin 256) (cl : Fin 64) :
    shapeCast S4x256x64 (ProjValue.projArr (shapeCast S1024x768 x shapeCasts_S4x256x768_S1024x768)
        (transpose S768x64 [1, 0] w transposes_S64x768_S768x64_1_0)) shapeCasts_S1024x64_S4x256x64 (ix3 b s cl)
      = Cert.Spec.proj x w b s cl := by
  rw [unflatten_apply]
  unfold ProjValue.projArr Cert.Spec.proj
  refine Finset.sum_congr rfl fun k _ => ?_
  exact congrArg₂ (· * ·) (flatten_apply x b s k) (transpose_apply' w k cl)

variable (m : (ℓ : Loc nD τ sig) → Buf (Elt Ideal) ℓ)

/-! ## The buffers between the items -/

theorem flat_eq (c : Dev nD) : (V1 m c main_v0 : S1024x768.Idx → EReal)
    = shapeCast S1024x768 (m ((c : Thread nD τ).loc main_arg0)) shapeCasts_S4x256x768_S1024x768 := by
  show StableHlo.after hostOps0 (W0 m c) (Proc.devRef .tc main_v0) = _
  after_results
  rfl

theorem wt_eq (c : Dev nD) : (V1 m c main_v1 : S768x64.Idx → EReal)
    = transpose S768x64 [1, 0] (m ((c : Thread nD τ).loc main_arg1)) transposes_S64x768_S768x64_1_0 := by
  show StableHlo.after hostOps0 (W0 m c) (Proc.devRef .tc main_v1) = _
  after_results

theorem proj_eq (c : Dev nD) : (V3 m c main_v3 : S4x256x64.Idx → EReal)
    = shapeCast S4x256x64 (ProjValue.projArr (V1 m c main_v0) (V1 m c main_v1)) shapeCasts_S1024x64_S4x256x64 := by
  show StableHlo.after hostOps1 (W2 m c) (Proc.devRef .tc main_v3) = _
  after_results
  rw [show W2 m c (Proc.devRef .tc main_v2) = (Proj.dat (V1 m) c).arrAt 2 cfg0.N from W2_arr m c 2, ProjValue.final]
  rfl

theorem bias_eq (c : Dev nD) : (V3 m c main_arg2 : S64.Idx → EReal) = m ((c : Thread nD τ).loc main_arg2) :=
  (W3_of m c main_arg2 (by decide)).trans <| (W2_of_ne m c main_arg2 (by decide)).trans <| (W1_of m c main_arg2 (by decide)).trans rfl

/-- The projection's entry (b, s, c) is the specification's. -/
theorem proj_apply (c : Dev nD) (b : Fin 4) (s : Fin 256) (cl : Fin 64) :
    (V3 m c main_v3 : S4x256x64.Idx → EReal) (ix3 b s cl)
      = Cert.Spec.proj (m ((c : Thread nD τ).loc main_arg0)) (m ((c : Thread nD τ).loc main_arg1)) b s cl := by
  rw [proj_eq, flat_eq, wt_eq]
  exact proj_entry _ _ b s cl

/-- THE RESULT: after the run the result buffer holds `Spec.G` of the three arguments. -/
theorem result_eq (c : Dev nD) :
    W4 m c (Proc.devRef .tc main_v4)
      = Cert.Spec.G (m ((c : Thread nD τ).loc main_arg0)) (m ((c : Thread nD τ).loc main_arg1)) (m ((c : Thread nD τ).loc main_arg2)) := by
  rw [W4_out, DiffValue.final]
  funext o
  unfold DiffValue.diffArr Cert.Spec.G Cert.Spec.diffOfProj
  rw [proj_apply, proj_apply, bias_eq]

end Cert.KernelIdeal.KernelValue

end
-- ==== Proof.RefValue.lean ====
/-
  The reference's result, read one operation at a time at an index: it is the projection of the pairwise difference
  plus the bias; over real entries that is the kernel's arrangement `Spec.G`.
-/
import proofs.«179902_j43379169690302_1_alg».proof.Proof.Gen.ReferenceIdeal.Run
import proofs.«179902_j43379169690302_1_alg».proof.Proof.Gen.ReferenceIdeal.Read
import proofs.«179902_j43379169690302_1_alg».proof.Proof.Spec

noncomputable section

open scoped BigOperators

namespace Cert.RefValue

open Idealize.ShloMosaic Idealize.ShloMosaic.ValueIdx Cert.ReferenceIdeal Cert.ReferenceIdeal.Read

/-- The reference's result at an index is the projection of the difference plus the bias. -/
theorem ref_apply (x : (⟨S4x256x768, .f32⟩ : BufTy).Contents (Elt Ideal)) (w : (⟨S64x768, .f32⟩ : BufTy).Contents (Elt Ideal))
    (b : (⟨S64, .f32⟩ : BufTy).Contents (Elt Ideal)) (o : S4x256x256x64.Idx) :
    val_main_v8 (F := Ideal) x w b o
      = Cert.Spec.projOfDiff x w b ⟨(o 0).val, (o 0).isLt⟩ ⟨(o 1).val, (o 1).isLt⟩ ⟨(o 2).val, (o 2).isLt⟩ ⟨(o 3).val, (o 3).isLt⟩ := by
  rw [val_main_v8_apply, val_main_v5_apply, val_main_v7_apply, val_main_v6_apply]
  unfold Cert.Spec.projOfDiff
  rw [Ideal.addf_def]
  have eb : idx_main_v6 (idx_main_v7 o) = ix1 ⟨(o 3).val, (o 3).isLt⟩ :=
    funext fun a => Fin.ext (by match a with | ⟨0, _⟩ => rfl)
  rw [eb]
  refine congrArg (· + b (ix1 ⟨(o 3).val, (o 3).isLt⟩)) ?_
  refine Finset.sum_congr rfl fun k _ => ?_
  rw [val_main_v4_apply, val_main_v2_apply, val_main_v3_apply, val_main_v0_apply, val_main_v1_apply, Ideal.subf_def]
  have e1 : idx_main_v0 (idx_main_v2 (lidx_main_v5 o k)) = ix3 ⟨(o 0).val, (o 0).isLt⟩ ⟨(o 1).val, (o 1).isLt⟩ k :=
    funext fun a => Fin.ext (by match a with | ⟨0, _⟩ => rfl | ⟨1, _⟩ => rfl | ⟨2, _⟩ => rfl)
  have e2 : idx_main_v1 (idx_main_v3 (lidx_main_v5 o k)) = ix3 ⟨(o 0).val, (o 0).isLt⟩ ⟨(o 2).val, (o 2).isLt⟩ k :=
    funext fun a => Fin.ext (by match a with | ⟨0, _⟩ => rfl | ⟨1, _⟩ => rfl | ⟨2, _⟩ => rfl)
  have e3 : ridx_main_v5 o k = ix2 ⟨(o 3).val, (o 3).isLt⟩ k :=
    funext fun a => Fin.ext (by match a with | ⟨0, _⟩ => rfl | ⟨1, _⟩ => rfl)
  rw [e1, e2, e3]
  rfl

/-- Over real entries of `x` and `w` the reference's result is `Spec.G`. -/
theorem ref_eq_G (x : (⟨S4x256x768, .f32⟩ : BufTy).Contents (Elt Ideal)) (w : (⟨S64x768, .f32⟩ : BufTy).Contents (Elt Ideal))
    (b : (⟨S64, .f32⟩ : BufTy).Contents (Elt Ideal))
    (hx : ∀ j, ∃ r : ℝ, x j = (r : EReal)) (hw : ∀ j, ∃ r : ℝ, w j = (r : EReal)) :
    val_main_v8 (F := Ideal) x w b = Cert.Spec.G x w b := by
  funext o
  rw [ref_apply]
  exact Cert.Spec.projOfDiff_eq_diffOfProj x w b hx hw _ _ _ _

end Cert.RefValue

end
-- ==== Proof.Finite.lean ====
/-
  The precondition read back: where the printed predicate "every entry of every argument is less than +∞ in absolute
  value" is all ones, every entry of each argument array is a real number.
-/
import proofs.«179902_j43379169690302_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- The scalar shape has one index. -/
private instance subsingleton_scalar_idx : Subsingleton Cert.Pre_finite_inputs.S_.Idx := ⟨fun a b => funext fun d => d.elim0⟩

/-- An extended real whose absolute value is below +∞ is a real number. -/
private theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  induction v using EReal.rec with
  | bot => simp at h
  | coe r => exact ⟨r, rfl⟩
  | top => simp at h

/-- Where the precondition holds, every entry of the three arguments is a real number. -/
theorem real_of_pre [Cert.Pre_finite_inputs.Facts]
    (x : FVec Ideal Cert.Pre_finite_inputs.S4x256x768 .f32) (w : FVec Ideal Cert.Pre_finite_inputs.S64x768 .f32)
    (b : FVec Ideal Cert.Pre_finite_inputs.S64 .f32)
    (h : Cert.Pre_finite_inputs.fn (F := Ideal) x w b = fun _ => 1#1) :
    (∀ j, ∃ r : ℝ, x j = (r : EReal)) ∧ (∀ j, ∃ r : ℝ, w j = (r : EReal)) ∧ (∀ j, ∃ r : ℝ, b j = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun j => ?_, fun j => ?_, fun j => ?_⟩
  · exact real_of_abs_lt_inf _ (Host.reduce_andi_all _ _ _ _ _ h1 j)
  · exact real_of_abs_lt_inf _ (Host.reduce_andi_all _ _ _ _ _ h2 j)
  · exact real_of_abs_lt_inf _ (Host.reduce_andi_all _ _ _ _ _ h3 j)

end Cert.Finite

end
-- ==== Proof.lean ====
/-
  The certificate's claims. The kernel computes out[b, i, j, c] = p[b, i, c] − p[b, j, c] + bias[c] from one
  projection p[b, s, c] = Σ_k x[b, s, k] · w[c, k] (two pallas_calls); the reference computes
  Σ_k (x[b, i, k] − x[b, j, k]) · w[c, k] + bias[c]. Over the extended reals the two agree where every entry of x and
  w is a real number, which the precondition says. The three frames: each kernel program's run through its two
  regions (`Run.frame`), the reference's generated run. The ideal pass rewrote nothing, so `preserves` is `True`.
-/
import proofs.«179902_j43379169690302_1_alg».proof.Defs
import proofs.«179902_j43379169690302_1_alg».proof.Proof.Gen.Kernel
import proofs.«179902_j43379169690302_1_alg».proof.Proof.Gen.KernelIdeal
import proofs.«179902_j43379169690302_1_alg».proof.Proof.Gen.ReferenceIdeal
import proofs.«179902_j43379169690302_1_alg».proof.Proof.Gen.Pre_finite_inputs
import proofs.«179902_j43379169690302_1_alg».proof.Proof.Gen.ReferenceIdeal.Run
import proofs.«179902_j43379169690302_1_alg».proof.Proof.Gen.ReferenceIdeal.Read
import proofs.«179902_j43379169690302_1_alg».proof.Proof.BitsRun
import proofs.«179902_j43379169690302_1_alg».proof.Proof.IdealRun
import proofs.«179902_j43379169690302_1_alg».proof.Proof.KernelValue
import proofs.«179902_j43379169690302_1_alg».proof.Proof.RefValue
import proofs.«179902_j43379169690302_1_alg».proof.Proof.Finite

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's result buffer ends at `Spec.G` of its arguments (the run through the two regions, read
    back), and the reference's at the projection of the pairwise difference plus the bias, which over the real entries
    the precondition gives is `Spec.G` of the same arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Run.run m ρ)
    · exact (h c _ (Cert.KernelIdeal.Run.mem_uc Cert.KernelIdeal.main_v4 (by decide))).trans (Cert.KernelIdeal.KernelValue.result_eq m c)
    · exact (h c _ (Cert.KernelIdeal.Run.mem_uc Cert.KernelIdeal.main_arg0 (by decide))).trans
        (Cert.KernelIdeal.Run.W4_kept m c Cert.KernelIdeal.main_arg0 (by decide) (by decide) (by decide) (by decide))
    · exact (h c _ (Cert.KernelIdeal.Run.mem_uc Cert.KernelIdeal.main_arg1 (by decide))).trans
        (Cert.KernelIdeal.Run.W4_kept m c Cert.KernelIdeal.main_arg1 (by decide) (by decide) (by decide) (by decide))
    · exact (h c _ (Cert.KernelIdeal.Run.mem_uc Cert.KernelIdeal.main_arg2 (by decide))).trans
        (Cert.KernelIdeal.Run.W4_kept m c Cert.KernelIdeal.main_arg2 (by decide) (by decide) (by decide) (by decide))
  · refine (θ_run Cert.ReferenceIdeal.defs _ _).mono (fun _ h c => ⟨?_, (h c).2⟩)
      (Cert.ReferenceIdeal.Value.run (F := Ideal) m' ρ')
    obtain ⟨hx, hw, -⟩ := Cert.Finite.real_of_pre _ _ _ (hpre c)
    rw [(h c).1, Cert.ReferenceIdeal.Read.val_main_v8_eq, (hagree c).1, (hagree c).2.1, (hagree c).2.2]
    exact Cert.RefValue.ref_eq_G _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
